-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S2x2048x4096 .f32) (main_arg1 : FVec F S4096x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S2x2048x4096 : Shape := ⟨3, ![2, 2048, 4096]⟩
abbrev S4096x4096 : Shape := ⟨2, ![4096, 4096]⟩
abbrev S1024x512 : Shape := ⟨2, ![1024, 512]⟩
abbrev S1024x1024 : Shape := ⟨2, ![1024, 1024]⟩
abbrev S1024x4x128 : Shape := ⟨3, ![1024, 4, 128]⟩
abbrev S1024x4 : Shape := ⟨2, ![1024, 4]⟩
abbrev S1024x4x1 : Shape := ⟨3, ![1024, 4, 1]⟩

abbrev nBuf : Space → Nat
  | .hbm => 5
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S2x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v36 : BitVec 1 := Scalar.cmpi .eq arg2 c7_i32
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S2x2048x4096_S4096x4096 : S2x2048x4096.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x4x128 : S1024x512.ShapeCasts S1024x4x128
  reduces_S1024x4x128_S1024x4 : S1024x4x128.Reduces [2] S1024x4
  shapeCasts_S1024x4_S1024x4x1 : S1024x4.ShapeCasts S1024x4x1
  broadcasts_S1024x4x1_S1024x4x128 : S1024x4x1.Broadcasts S1024x4x128
  shapeCasts_S1024x4x128_S1024x512 : S1024x4x128.ShapeCasts S1024x512
  bitsLt_bf16_f32 : FTy.bits .bf16 < FTy.bits .f32
  shapeCasts_S1024x512_S1024x512 : S1024x512.ShapeCasts S1024x512
  shapeCasts_S4096x4096_S2x2048x4096 : S4096x4096.ShapeCasts S2x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096x32x128 : Shape := ⟨3, ![4096, 32, 128]⟩
abbrev S_ : Shape := ⟨0, ![]⟩
abbrev S4096x32 : Shape := ⟨2, ![4096, 32]⟩
abbrev S4096x32x1 : Shape := ⟨3, ![4096, 32, 1]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x32x128, .f32⟩
  | .hbm, ⟨3, _⟩ => ⟨S4096x32x128, .f32⟩
  | .hbm, ⟨4, _⟩ => ⟨S_, .f32⟩
  | .hbm, ⟨5, _⟩ => ⟨S4096x32, .f32⟩
  | .hbm, ⟨6, _⟩ => ⟨S4096x32x1, .f32⟩
  | .hbm, ⟨7, _⟩ => ⟨S_, .f32⟩
  | .hbm, ⟨8, _⟩ => ⟨S4096x32x1, .f32⟩
  | .hbm, ⟨9, _⟩ => ⟨S4096x32x1, .f32⟩
  | .hbm, ⟨10, _⟩ => ⟨S_, .f32⟩
  | .hbm, ⟨11, _⟩ => ⟨S4096x32x1, .f32⟩
  | .hbm, ⟨12, _⟩ => ⟨S4096x32x1, .f32⟩
  | .hbm, ⟨13, _⟩ => ⟨S4096x32x128, .f32⟩
  | .hbm, ⟨14, _⟩ => ⟨S4096x32x128, .f32⟩
  | .hbm, ⟨15, _⟩ => ⟨S_, .f32⟩
  | .hbm, ⟨16, _⟩ => ⟨S4096x32x128, .f32⟩
  | .hbm, ⟨17, _⟩ => ⟨S4096x32x128, .i1⟩
  | .hbm, ⟨18, _⟩ => ⟨S_, .f32⟩
  | .hbm, ⟨19, _⟩ => ⟨S4096x32x128, .f32⟩
  | .hbm, ⟨20, _⟩ => ⟨S4096x32x128, .i1⟩
  | .hbm, ⟨21, _⟩ => ⟨S_, .f32⟩
  | .hbm, ⟨22, _⟩ => ⟨S_, .f32⟩
  | .hbm, ⟨23, _⟩ => ⟨S4096x32x128, .f32⟩
  | .hbm, ⟨24, _⟩ => ⟨S4096x32x128, .f32⟩
  | .hbm, ⟨25, _⟩ => ⟨S4096x32x128, .f32⟩
  | .hbm, ⟨26, _⟩ => ⟨S_, .f32⟩
  | .hbm, ⟨27, _⟩ => ⟨S4096x32x128, .f32⟩
  | .hbm, ⟨28, _⟩ => ⟨S4096x32x128, .f32⟩
  | .hbm, ⟨29, _⟩ => ⟨S4096x32x128, .f32⟩
  | .hbm, ⟨30, _⟩ => ⟨S4096x32x128, .f32⟩
  | .hbm, ⟨31, _⟩ => ⟨S4096x32x128, .f32⟩
  | .hbm, ⟨32, _⟩ => ⟨S4096x4096, .f32⟩
  | .hbm, ⟨33, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_cst_5 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_6 : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  shapeCasts_S4096x4096_S4096x32x128 : S4096x4096.ShapeCasts S4096x32x128
  reducesTo_S4096x32x128_S4096x32_d2 : S4096x32x128.ReducesTo [2] S4096x32
  h_S_ : 0 < S_.numel
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S4096x32x1_S4096x32x128_0_1_2 : S4096x32x1.BroadcastsInDim S4096x32x128 (![0, 1, 2] : Fin 3 → Fin S4096x32x128.rank)
  bcast_S_S4096x32x128 : S_.BroadcastsInDim S4096x32x128 (![] : Fin 0 → Fin S4096x32x128.rank)
  shapeCasts_S4096x32x128_S4096x4096 : S4096x32x128.ShapeCasts S4096x4096
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Spec.lean ====
/-
  The mathematics both programs compute, stated once over the extended reals, with no program in sight.

  A weight row is cut into groups of 128 consecutive entries. A group's scale is the larger of the mean of
  its absolute values and a fixed small constant; an entry is coded as +1, -1 or 0 according to whether its
  quotient by the scale lies above one half, below minus one half, or between, and the quantized weight is
  the code times the scale. The result is the product of the activations with the transposed quantized
  weights: entry (b, s, o) is the sum over d of x[b, s, d] times the quantized weight at (o, d).

  One program forms that sum in one piece; the other forms eight partial sums of 512 terms each and adds
  them, one after another, onto zero. Addition on the extended reals is commutative and associative, so the
  two agree (`psum_eight`): no finiteness of the inputs is used anywhere.
-/
import Idealize.ShloMosaic.PureOps.Ideal
import Idealize.ShloMosaic.PureOps.Ideal.Laws
import Idealize.ShloMosaic.Lib.ValueIdx

noncomputable section

namespace Cert.TernaryLinear

open Idealize.ShloMosaic Idealize.ShloMosaic.ValueIdx

/-! ## The scalar functions -/

/-- The ternary code of `w` at scale `s`, times the scale: `s` if `w / s > 1/2`, `-s` if `w / s < -1/2`, else `0 · s`.
    The four constants are the binary words of 1/2, -1/2, 1, -1 and 0, kept as words: both programs carry the same ones. -/
def tern (s w : EReal) : EReal :=
  Scalar.select (Ideal.cmp .ogt (Ideal.div w s) (Ideal.ofBits .f32 0x3F000000#32)) (Ideal.ofBits .f32 0x3F800000#32)
      (Scalar.select (Ideal.cmp .olt (Ideal.div w s) (Ideal.ofBits .f32 0xBF000000#32)) (Ideal.ofBits .f32 0xBF800000#32)
        (Ideal.ofBits .f32 0x00000000#32))
    * s

/-- A group's scale from the sum `a` of its 128 absolute values: the mean `a / 128`, floored at the small constant. -/
def groupScale (a : EReal) : EReal :=
  max (Ideal.div a (Ideal.ofBits .f32 0x43000000#32)) (Ideal.ofBits .f32 0x322BCC77#32)

/-- The quantized value of an entry `w` whose group holds the 128 values `grp`. -/
def quantOf (grp : Fin 128 → EReal) (w : EReal) : EReal :=
  tern (groupScale (∑ l : Fin 128, max (grp l) (-(grp l)))) w

/-! ## Columns, groups and tiles of a row of 4096 -/

/-- Column `g · 128 + l`: entry `l` of group `g`. -/
def colOf (g : Fin 32) (l : Fin 128) : Fin 4096 := ⟨g.val * 128 + l.val, by have := g.isLt; have := l.isLt; omega⟩

/-- The group a column lies in. -/
def grpOf (d : Fin 4096) : Fin 32 := ⟨d.val / 128, by have := d.isLt; omega⟩

/-- Column `k · 512 + j`: entry `j` of the `k`-th tile of 512 columns. -/
def tileCol (k : Fin 8) (j : Fin 512) : Fin 4096 := ⟨k.val * 512 + j.val, by have := k.isLt; have := j.isLt; omega⟩

/-! ## The result as one function of the two arrays -/

/-- The quantized weight at row `o`, column `d`. -/
def wq (W : (⟨2, ![4096, 4096]⟩ : Shape).Idx → EReal) (o d : Fin 4096) : EReal :=
  quantOf (fun l => W (ix2 o (colOf (grpOf d) l))) (W (ix2 o d))

/-- Row `r` of the flattened activations against row `o` of the quantized weights. -/
def dot2 (X2 W : (⟨2, ![4096, 4096]⟩ : Shape).Idx → EReal) (r o : Fin 4096) : EReal :=
  ∑ d : Fin 4096, X2 (ix2 r d) * wq W o d

/-- The same with the activations in their three-axis layout. -/
def dot3 (X : (⟨3, ![2, 2048, 4096]⟩ : Shape).Idx → EReal) (W : (⟨2, ![4096, 4096]⟩ : Shape).Idx → EReal)
    (b : Fin 2) (s : Fin 2048) (o : Fin 4096) : EReal :=
  ∑ d : Fin 4096, X (ix3 b s d) * wq W o d

/-- The result array. -/
def result (X : (⟨3, ![2, 2048, 4096]⟩ : Shape).Idx → EReal) (W : (⟨2, ![4096, 4096]⟩ : Shape).Idx → EReal) :
    (⟨3, ![2, 2048, 4096]⟩ : Shape).Idx → EReal :=
  fun i => dot3 X W (i 0 : Fin 2) (i 1 : Fin 2048) (i 2 : Fin 4096)

theorem result_ix3 (X : (⟨3, ![2, 2048, 4096]⟩ : Shape).Idx → EReal) (W : (⟨2, ![4096, 4096]⟩ : Shape).Idx → EReal)
    (b : Fin 2) (s : Fin 2048) (o : Fin 4096) : result X W (ix3 b s o) = dot3 X W b s o := rfl

/-! ## A sum of 4096 terms, taken eight tiles at a time -/

section Tiles
variable {M : Type} [AddCommMonoid M]

/-- The sum over the `k`-th tile of 512 columns. -/
def tileSum (f : Fin 4096 → M) (k : Fin 8) : M := ∑ j : Fin 512, f (tileCol k j)

/-- The first `n` tiles' sums, added one after another onto zero. -/
def psum (f : Fin 4096 → M) : ℕ → M
  | 0 => 0
  | n + 1 => psum f n + (if h : n < 8 then tileSum f ⟨n, h⟩ else 0)

theorem psum_zero (f : Fin 4096 → M) : psum f 0 = 0 := rfl

theorem psum_succ (f : Fin 4096 → M) (n : ℕ) (h : n < 8) : psum f (n + 1) = psum f n + tileSum f ⟨n, h⟩ := by
  show psum f n + (if h : n < 8 then tileSum f ⟨n, h⟩ else 0) = _
  rw [dif_pos h]

/-- The whole sum is the sum of the eight tiles' sums. -/
theorem sum_tiles (f : Fin 4096 → M) : ∑ d : Fin 4096, f d = ∑ k : Fin 8, tileSum f k := by
  unfold tileSum
  rw [← Fintype.sum_prod_type']
  refine (Fintype.sum_equiv (finProdFinEquiv (m := 8) (n := 512)) (fun p => f (tileCol p.1 p.2)) f fun p => ?_).symm
  refine congrArg f (Fin.ext ?_)
  show p.1.val * 512 + p.2.val = p.2.val + 512 * p.1.val
  omega

/-- All eight tiles, added in order onto zero, give the whole sum. -/
theorem psum_eight (f : Fin 4096 → M) : psum f 8 = ∑ d : Fin 4096, f d := by
  rw [sum_tiles, Fin.sum_univ_eight]
  simp only [psum, dif_pos, Nat.lt_add_one, Nat.reduceLT, zero_add]
  rfl

end Tiles

end Cert.TernaryLinear

end
-- ==== Proof.RefValue.lean ====
/-
  The reference, read index by index: its result at (b, s, o) is the sum over d of x[b, s, d] times the
  quantized weight at (o, d) — the function `TernaryLinear.result` of the specification.

  The reference reshapes the weights to (row, group, lane), sums the absolute values along the lanes,
  divides by 128 and floors the quotient, broadcasts that scale back along the lanes, codes each entry and
  multiplies by the scale, reshapes back to (row, column) and contracts with the activations. Every layout step
  keeps the row-major position, so (row o, column d) is (o, d / 128, d % 128) and back.
-/
import proofs.«171046_j10376640987248_1_alg».proof.Proof.Gen.ReferenceIdeal.Read
import proofs.«171046_j10376640987248_1_alg».proof.Proof.Spec

noncomputable section

namespace Cert.ReferenceIdeal.RefValue

open Cert.ReferenceIdeal Cert.ReferenceIdeal.Read Cert.TernaryLinear
open Idealize.ShloMosaic Idealize.ShloMosaic.ValueIdx

/-- The lane of a column inside its group. -/
def laneOf (d : Fin 4096) : Fin 128 := ⟨d.val % 128, Nat.mod_lt _ (by decide)⟩

theorem colOf_grp_lane (d : Fin 4096) : colOf (grpOf d) (laneOf d) = d :=
  Fin.ext (by show d.val / 128 * 128 + d.val % 128 = d.val; omega)

/-! ## The index maps of the layout steps, at coordinates -/

theorem idx0_ix3 (o : Fin 4096) (g : Fin 32) (l : Fin 128) : idx_main_v0 (ix3 o g l) = ix2 o (colOf g l) := by
  have ho := o.isLt; have hg := g.isLt; have hl := l.isLt
  funext a
  match a with
  | ⟨0, _⟩ => exact Fin.ext (by show ((o.val * 32 + g.val) * 128 + l.val) / 4096 = o.val; omega)
  | ⟨1, _⟩ => exact Fin.ext (by show ((o.val * 32 + g.val) * 128 + l.val) % 4096 = g.val * 128 + l.val; omega)

theorem idx2_ix2 (o : Fin 4096) (g : Fin 32) (l : Fin 128) : idx_main_v2 (ix2 o g) l = ix3 o g l := by
  funext a
  match a with
  | ⟨0, _⟩ => rfl
  | ⟨1, _⟩ => rfl
  | ⟨2, _⟩ => rfl

theorem idx3_ix3 (o : Fin 4096) (g : Fin 32) (z : Fin 1) : idx_main_v3 (ix3 o g z) = ix2 o g := by
  funext a
  match a with
  | ⟨0, _⟩ => rfl
  | ⟨1, _⟩ => rfl

theorem idx8_ix3 (o : Fin 4096) (g : Fin 32) (l : Fin 128) : idx_main_v8 (ix3 o g l) = ix3 o g (0 : Fin 1) := by
  funext a
  match a with
  | ⟨0, _⟩ => rfl
  | ⟨1, _⟩ => rfl
  | ⟨2, _⟩ => rfl

theorem idx17_ix3 (o : Fin 4096) (g : Fin 32) (l : Fin 128) : idx_main_v17 (ix3 o g l) = ix3 o g (0 : Fin 1) := by
  funext a
  match a with
  | ⟨0, _⟩ => rfl
  | ⟨1, _⟩ => rfl
  | ⟨2, _⟩ => rfl

theorem idx19_ix2 (o d : Fin 4096) : idx_main_v19 (ix2 o d) = ix3 o (grpOf d) (laneOf d) := by
  have ho := o.isLt; have hd := d.isLt
  funext a
  match a with
  | ⟨0, _⟩ => exact Fin.ext (by show (o.val * 4096 + d.val) / 4096 = o.val; omega)
  | ⟨1, _⟩ => exact Fin.ext (by show (o.val * 4096 + d.val) / 128 % 32 = d.val / 128; omega)
  | ⟨2, _⟩ => exact Fin.ext (by show (o.val * 4096 + d.val) % 128 = d.val % 128; omega)

theorem lidx20_ix3 (b : Fin 2) (s : Fin 2048) (o d : Fin 4096) : lidx_main_v20 (ix3 b s o) d = ix3 b s d := by
  funext a
  match a with
  | ⟨0, _⟩ => rfl
  | ⟨1, _⟩ => rfl
  | ⟨2, _⟩ => rfl

theorem ridx20_ix3 (b : Fin 2) (s : Fin 2048) (o d : Fin 4096) : ridx_main_v20 (ix3 b s o) d = ix2 o d := by
  funext a
  match a with
  | ⟨0, _⟩ => rfl
  | ⟨1, _⟩ => rfl

/-! ## The stages at coordinates -/

variable (W : (⟨S4096x4096, .f32⟩ : BufTy).Contents (Elt Ideal))

/-- The group's scale: the floored mean of the group's absolute values. -/
theorem scale_apply (o : Fin 4096) (g : Fin 32) (z : Fin 1) :
    val_main_v7 (F := Ideal) W (ix3 o g z)
      = groupScale (∑ l : Fin 128, max (W (ix2 o (colOf g l))) (-(W (ix2 o (colOf g l))))) := by
  rw [val_main_v7_apply, val_main_v5_apply, val_main_v6_apply, val_main_cst_1_apply, val_main_v4_apply,
    val_main_cst_0_apply, val_main_v3_apply, idx3_ix3, val_main_v2_apply, val_main_cst_apply]
  simp only [idx2_ix2, val_main_v1_apply, val_main_v0_apply, idx0_ix3, Ideal.hostAbsf_def, Ideal.absf_def,
    Ideal.hostDivf_def, Ideal.maximumf_def, Ideal.ofBits_def, Ideal.ofBits_zero_f32, zero_add]
  rfl

/-- An entry's quotient by its group's scale. -/
theorem quot_apply (o : Fin 4096) (g : Fin 32) (l : Fin 128) :
    val_main_v9 (F := Ideal) W (ix3 o g l)
      = Ideal.div (W (ix2 o (colOf g l)))
          (groupScale (∑ l : Fin 128, max (W (ix2 o (colOf g l))) (-(W (ix2 o (colOf g l)))))) := by
  rw [val_main_v9_apply, val_main_v8_apply, idx8_ix3, scale_apply, val_main_v0_apply, idx0_ix3]
  rfl

/-- The quantized weight in the (row, group, lane) layout. -/
theorem coded_apply (o : Fin 4096) (g : Fin 32) (l : Fin 128) :
    val_main_v18 (F := Ideal) W (ix3 o g l)
      = quantOf (fun l => W (ix2 o (colOf g l))) (W (ix2 o (colOf g l))) := by
  rw [val_main_v18_apply, val_main_v17_apply, idx17_ix3, scale_apply, val_main_v16_apply, val_main_v15_apply,
    val_main_v14_apply, val_main_v11_apply, val_main_v13_apply, quot_apply, val_main_v10_apply, val_main_v12_apply,
    val_main_call1_v0_apply, val_main_call0_v0_apply, val_main_call0_v1_apply, val_main_cst_2_apply,
    val_main_cst_3_apply, val_main_cst_4_apply, val_main_cst_5_apply, val_main_cst_6_apply]
  rfl

/-- Back in the (row, column) layout it is `wq`. -/
theorem wq_apply (o d : Fin 4096) : val_main_v19 (F := Ideal) W (ix2 o d) = wq W o d := by
  rw [val_main_v19_apply, idx19_ix2, coded_apply, colOf_grp_lane]
  rfl

/-- The reference's result is the specification's. -/
theorem result_eq (X : (⟨S2x2048x4096, .f32⟩ : BufTy).Contents (Elt Ideal)) :
    val_main_v20 (F := Ideal) X W = result X W := by
  funext i
  obtain ⟨b, s, o, rfl⟩ : ∃ (b : Fin 2) (s : Fin 2048) (o : Fin 4096), i = ix3 b s o := ⟨i 0, i 1, i 2, eq_ix3 i⟩
  rw [val_main_v20_apply, result_ix3]
  unfold dot3
  refine Finset.sum_congr rfl fun d _ => ?_
  rw [lidx20_ix3, ridx20_ix3, wq_apply]

end Cert.ReferenceIdeal.RefValue

end
-- ==== Proof.TileValue.lean ====
/-
  What one grid step computes, read at an index over the extended reals.

  A step holds a 1024 x 512 tile of activations, a 1024 x 512 tile of weights and a 1024 x 1024 accumulator.
  It quantizes the weight tile group by group (four groups of 128 lanes in each row of the tile), contracts the
  activation tile with the quantized tile along the 512 columns, and adds the product to the accumulator:
  entry (p, q) of the new accumulator is the old one plus the sum over j of x[p, j] times the quantized w[q, j].
  The first step of a run of eight starts from the all-zero accumulator.

  The reshapes of the tile to (row, group, lane) and back keep the row-major position; the per-group scale is
  stored on a unit lane axis and broadcast back along the lanes.
-/
import proofs.«171046_j10376640987248_1_alg».proof.Proof.Gen.KernelIdeal.Skeleton
import proofs.«171046_j10376640987248_1_alg».proof.Proof.Spec
import Idealize.ShloMosaic.Lib.Pipeline.Value
import Idealize.ShloMosaic.Lib.ValueIdx
import Idealize.ShloMosaic.PureOps.Ideal.Laws

noncomputable section

namespace Cert.KernelIdeal.TileValue

open Cert.KernelIdeal Cert.KernelIdeal.Gen Cert.TernaryLinear
open Idealize.ShloMosaic Idealize.ShloMosaic.ValueIdx

/-! ## Columns, groups and lanes of a tile row of 512 -/

/-- Column `g · 128 + l` of a tile row. -/
def col4 (g : Fin 4) (l : Fin 128) : Fin 512 := ⟨g.val * 128 + l.val, by have := g.isLt; have := l.isLt; omega⟩
/-- The group of a tile column. -/
def grp4 (j : Fin 512) : Fin 4 := ⟨j.val / 128, by have := j.isLt; omega⟩
/-- The lane of a tile column. -/
def lane4 (j : Fin 512) : Fin 128 := ⟨j.val % 128, Nat.mod_lt _ (by decide)⟩

theorem col4_grp_lane (j : Fin 512) : col4 (grp4 j) (lane4 j) = j :=
  Fin.ext (by show j.val / 128 * 128 + j.val % 128 = j.val; omega)

/-! ## The layout steps at coordinates -/

/-- (row, column) to (row, group, lane). -/
theorem split_apply (v : FVec Ideal S1024x512 .f32) (h : S1024x512.ShapeCasts S1024x4x128) (q : Fin 1024) (g : Fin 4) (l : Fin 128) :
    shapeCast S1024x4x128 v h (ix3 q g l) = v (ix2 q (col4 g l)) :=
  shapeCast_apply v h (ix3 q g l) (ix2 q (col4 g l)) (by
    rw [Shape.rowMajor_val_two, Shape.rowMajor_val_three]
    show q.val * 512 + (g.val * 128 + l.val) = (q.val * 4 + g.val) * 128 + l.val
    omega)

/-- (row, group, lane) back to (row, column). -/
theorem merge_apply (v : FVec Ideal S1024x4x128 .f32) (h : S1024x4x128.ShapeCasts S1024x512) (q : Fin 1024) (j : Fin 512) :
    shapeCast S1024x512 v h (ix2 q j) = v (ix3 q (grp4 j) (lane4 j)) :=
  shapeCast_apply v h (ix2 q j) (ix3 q (grp4 j) (lane4 j)) (by
    rw [Shape.rowMajor_val_three, Shape.rowMajor_val_two]
    show (q.val * 4 + j.val / 128) * 128 + j.val % 128 = q.val * 512 + j.val
    have := j.isLt
    omega)

/-- (row, group) to (row, group, unit lane). -/
theorem keepdim_apply (v : FVec Ideal S1024x4 .f32) (h : S1024x4.ShapeCasts S1024x4x1) (q : Fin 1024) (g : Fin 4) (z : Fin 1) :
    shapeCast S1024x4x1 v h (ix3 q g z) = v (ix2 q g) :=
  shapeCast_apply v h (ix3 q g z) (ix2 q g) (by
    rw [Shape.rowMajor_val_two, Shape.rowMajor_val_three]
    show q.val * 4 + g.val = (q.val * 4 + g.val) * 1 + z.val
    have := z.isLt
    omega)

/-- The unit lane broadcast along the 128 lanes. -/
theorem lanes_apply (v : FVec Ideal S1024x4x1 .f32) (h : S1024x4x1.Broadcasts S1024x4x128) (q : Fin 1024) (g : Fin 4) (l : Fin 128) :
    broadcastTo S1024x4x128 v h (ix3 q g l) = v (ix3 q g (0 : Fin 1)) :=
  broadcastTo_apply v h (ix3 q g l) (ix3 q g (0 : Fin 1)) (fun a => match a with
    | ⟨0, _⟩ => by show q.val = if (1024 : Nat) = 1 then 0 else q.val; rw [if_neg (by decide)]
    | ⟨1, _⟩ => by show g.val = if (4 : Nat) = 1 then 0 else g.val; rw [if_neg (by decide)]
    | ⟨2, _⟩ => by show 0 = if (1 : Nat) = 1 then 0 else l.val; rw [if_pos rfl])

/-- The sum along the lanes. -/
theorem lanesum_apply (v : FVec Ideal S1024x4x128 .f32) (h : S1024x4x128.Reduces [2] S1024x4) (hφ : FKind.Formats .f32)
    (hacc : (0x00000000#32 : BitVec 32) = 0x00000000#32) (q : Fin 1024) (g : Fin 4) :
    multiReduction .add [2] S1024x4 v 0x00000000#32 h hφ hacc (ix2 q g) = ∑ l : Fin 128, v (ix3 q g l) :=
  (Ideal.multiReduction_add_single v _ h hφ hacc (ix2 q g)).trans
    (Finset.sum_congr rfl fun l _ => congrArg v (funext fun a => Fin.ext (by
      match a with
      | ⟨0, _⟩ => rfl
      | ⟨1, _⟩ => rfl
      | ⟨2, _⟩ => rfl)))

theorem absf_apply {s : Shape} (v : FVec Ideal s .f32) (i : s.Idx) : absf v i = max (v i) (-(v i)) := rfl

/-! ## The contraction along the 512 columns -/

theorem lhs_0 (i : S1024x1024.Idx) (c : dot_S1024x512_S1024x512_S1024x1024_1_1_0_0_n_n.contr.Idx) :
    (dot_S1024x512_S1024x512_S1024x1024_1_1_0_0_n_n.lhsIdx i c 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_1 (i : S1024x1024.Idx) (c : dot_S1024x512_S1024x512_S1024x1024_1_1_0_0_n_n.contr.Idx) :
    (dot_S1024x512_S1024x512_S1024x1024_1_1_0_0_n_n.lhsIdx i c 1).val = (c ⟨0, by decide⟩).val :=
  dot_S1024x512_S1024x512_S1024x1024_1_1_0_0_n_n.lhsIdx_val_of_single rfl i c
theorem rhs_0 (i : S1024x1024.Idx) (c : dot_S1024x512_S1024x512_S1024x1024_1_1_0_0_n_n.contr.Idx) :
    (dot_S1024x512_S1024x512_S1024x1024_1_1_0_0_n_n.rhsIdx i c 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_1 (i : S1024x1024.Idx) (c : dot_S1024x512_S1024x512_S1024x1024_1_1_0_0_n_n.contr.Idx) :
    (dot_S1024x512_S1024x512_S1024x1024_1_1_0_0_n_n.rhsIdx i c 1).val = (c ⟨0, by decide⟩).val :=
  dot_S1024x512_S1024x512_S1024x1024_1_1_0_0_n_n.rhsIdx_val_of_single rfl i c

/-- The product of a tile with the transpose of another, into the zero accumulator: entry (p, q) is the sum over the
    512 columns of the two rows' products. -/
theorem contract_apply (a b : FVec Ideal S1024x512 .bf16) (p q : Fin 1024) :
    matmul dot_S1024x512_S1024x512_S1024x1024_1_1_0_0_n_n none a b (constant (F := Ideal) S1024x1024 .f32 0x00000000#32) (ix2 p q)
      = ∑ j : Fin 512, a (ix2 p j) * b (ix2 q j) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_0 _ _
    | ⟨1, _⟩ => exact (lhs_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_0 _ _
    | ⟨1, _⟩ => exact (rhs_1 _ _).trans hk)
  rw [el, er]

/-! ## The two payloads -/

/-- The reset stores zero everywhere. -/
theorem zero_apply (i : S1024x1024.Idx) : (k0_pay1 (F := Ideal)) i = 0 := by
  unfold k0_pay1
  simp only [shapeCast_self, broadcast_apply]
  exact Ideal.ofBits_zero_f32

/-- The step: the accumulator plus the tile product with the quantized weight tile. -/
theorem step_apply (w x : FVec Ideal S1024x512 .f32) (acc : FVec Ideal S1024x1024 .f32) (p q : Fin 1024) :
    k0_pay2 (F := Ideal) w x acc (ix2 p q)
      = acc (ix2 p q) + ∑ j : Fin 512, x (ix2 p j) * quantOf (fun l => w (ix2 q (col4 (grp4 j) l))) (w (ix2 q j)) := by
  unfold k0_pay2
  simp only [shapeCast_self]
  rw [addf_apply]
  refine congrArg (acc (ix2 p q) + ·) ?_
  refine (contract_apply _ _ p q).trans (Finset.sum_congr rfl fun j _ => ?_)
  rw [truncf_apply, truncf_apply]
  refine congrArg (x (ix2 p j) * ·) ?_
  refine (merge_apply _ _ q j).trans ?_
  simp only [mulf_apply, select_apply, cmpf_apply, divf_apply, maximumf_apply, broadcast_apply, lanes_apply, keepdim_apply,
    split_apply, col4_grp_lane]
  rw [lanesum_apply]
  simp only [absf_apply, split_apply]
  rfl

end Cert.KernelIdeal.TileValue

end
-- ==== Proof.Blocks.lean ====
/-
  Where a grid point's tiles sit in the whole arrays.

  The 128 grid points are (i, j, k) in 4 x 4 x 8, k running fastest: point t has i = t / 32, j = t / 8 % 4 and
  k = t % 8. Its activation tile is rows i · 1024 … of the flattened activations and columns k · 512 …; its
  weight tile is rows j · 1024 … of the weights and the same columns. A tile of 512 columns is four whole groups
  of 128, so quantizing a weight tile group by group gives exactly the quantized whole matrix on that tile, and
  the sum of 512 products one step forms is the k-th tile sum of the whole row product.

  The flattened activations are the three-axis ones reshaped: row r is (r / 2048, r % 2048).
-/
import proofs.«171046_j10376640987248_1_alg».proof.Proof.Gen.KernelIdeal.Frame
import proofs.«171046_j10376640987248_1_alg».proof.Proof.Spec
import proofs.«171046_j10376640987248_1_alg».proof.Proof.TileValue
import Idealize.ShloMosaic.Lib.Pipeline.Value
import Idealize.ShloMosaic.Lib.StableHlo.Run

noncomputable section

namespace Cert.KernelIdeal.Blocks

open Cert.KernelIdeal Cert.KernelIdeal.Gen Cert.TernaryLinear Cert.KernelIdeal.TileValue
open Idealize.ShloMosaic Idealize.ShloMosaic.TcCoe Idealize.ShloMosaic.ValueIdx Idealize.SL.Sem

variable (m : (ℓ : Loc nD τ sig) → Buf (Elt Ideal) ℓ)

/-- The flattened activations, as the kernel region finds them. -/
abbrev xarr (c : Dev nD) : FVec Ideal S4096x4096 .f32 := V m c main_v0
/-- The weights, as the kernel region finds them. -/
abbrev warr (c : Dev nD) : FVec Ideal S4096x4096 .f32 := V m c main_arg1
/-- Point `t`'s activation tile. -/
abbrev xblk (c : Dev nD) (t : Fin cfg0.N) : FVec Ideal S1024x512 .f32 := iblk m c 0 t
/-- Point `t`'s weight tile. -/
abbrev wblk (c : Dev nD) (t : Fin cfg0.N) : FVec Ideal S1024x512 .f32 := iblk m c 1 t

/-- The block indices of the three windows at point `t`, decided over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = t.val / 8 % 4 :=
  (by decide +kernel : ∀ t : Fin grid0.N, _)

/-- Row `p` of the activation tile (and of the output tile) of point `n`, in the whole array. -/
def xrow (n : ℕ) (p : Fin 1024) : Fin 4096 :=
  ⟨n / 32 % 4 * 1024 + p.val, by have := p.isLt; have := Nat.mod_lt (n / 32) (by decide : 0 < 4); omega⟩
/-- Row `q` of the weight tile of point `n` (column `q` of its output tile), in the whole array. -/
def wrow (n : ℕ) (q : Fin 1024) : Fin 4096 :=
  ⟨n / 8 % 4 * 1024 + q.val, by have := q.isLt; have := Nat.mod_lt (n / 8) (by decide : 0 < 4); omega⟩
/-- The column tile of point `n`. -/
def tile (n : ℕ) : Fin 8 := ⟨n % 8, Nat.mod_lt _ (by decide)⟩

theorem xblk_apply (c : Dev nD) (t : Fin cfg0.N) (p : Fin 1024) (j : Fin 512) :
    xblk m c t (ix2 p j) = xarr m c (ix2 (xrow t.val p) (tileCol (tile t.val) j)) := by
  have hN : t.val < 128 := lt_of_lt_of_eq t.isLt (show cfg0.N = 128 from N_0)
  obtain ⟨e0, e1, -, -, -, -⟩ := idx_facts t
  unfold xblk iblk
  rw [View.read_apply]
  show V m c main_v0 _ = V m c main_v0 _
  congr 1
  funext a
  apply Fin.ext
  match a with
  | ⟨0, _⟩ => show win0_0.index t (0 : Fin 2) * 1024 + 1 * p.val = t.val / 32 % 4 * 1024 + p.val; rw [e0]; omega
  | ⟨1, _⟩ => show win0_0.index t (1 : Fin 2) * 512 + 1 * j.val = t.val % 8 * 512 + j.val; rw [e1]; omega

theorem wblk_apply (c : Dev nD) (t : Fin cfg0.N) (q : Fin 1024) (j : Fin 512) :
    wblk m c t (ix2 q j) = warr m c (ix2 (wrow t.val q) (tileCol (tile t.val) j)) := by
  obtain ⟨-, -, e2, e3, -, -⟩ := idx_facts t
  unfold wblk iblk
  rw [View.read_apply]
  show V m c main_arg1 _ = V m c main_arg1 _
  congr 1
  funext a
  apply Fin.ext
  match a with
  | ⟨0, _⟩ => show win0_1.index t (0 : Fin 2) * 1024 + 1 * q.val = t.val / 8 % 4 * 1024 + q.val; rw [e2]; omega
  | ⟨1, _⟩ => show win0_1.index t (1 : Fin 2) * 512 + 1 * j.val = t.val % 8 * 512 + j.val; rw [e3]; omega

/-- One step's sum of 512 products is the point's tile sum of the whole row product. -/
theorem tile_eq (c : Dev nD) (t : Fin cfg0.N) (p q : Fin 1024) :
    ∑ j : Fin 512, xblk m c t (ix2 p j)
        * quantOf (fun l => wblk m c t (ix2 q (col4 (grp4 j) l))) (wblk m c t (ix2 q j))
      = tileSum (fun d => xarr m c (ix2 (xrow t.val p) d) * wq (warr m c) (wrow t.val q) d) (tile t.val) := by
  unfold tileSum
  refine Finset.sum_congr rfl fun j _ => ?_
  rw [xblk_apply, wblk_apply]
  unfold wq
  refine congrArg (_ * ·) (congrArg (fun g => quantOf g _) (funext fun l => ?_))
  rw [wblk_apply]
  refine congrArg (warr m c) (congrArg (ix2 _) (Fin.ext ?_))
  show t.val % 8 * 512 + (j.val / 128 * 128 + l.val) = (t.val % 8 * 512 + j.val) / 128 * 128 + l.val
  have := j.isLt
  omega

/-! ## The flattened activations are the three-axis ones, reshaped -/

/-- The leading coordinate of a flattened row. -/
def rowB (r : Fin 4096) : Fin 2 := ⟨r.val / 2048, by have := r.isLt; omega⟩
/-- The middle coordinate of a flattened row. -/
def rowS (r : Fin 4096) : Fin 2048 := ⟨r.val % 2048, Nat.mod_lt _ (by decide)⟩

theorem xarr_apply (c : Dev nD) (r d : Fin 4096) :
    xarr m c (ix2 r d) = m ((c : Thread nD τ).loc main_arg0) (ix3 (rowB r) (rowS r) d) := by
  have e : (V m c main_v0 : FVec Ideal S4096x4096 .f32)
      = shapeCast S4096x4096 (m ((c : Thread nD τ).loc main_arg0)) Gen.shapeCasts_S2x2048x4096_S4096x4096 := by
    show StableHlo.after hostOps0 (fun b => m (c, b)) (Proc.devRef .tc main_v0) = _
    after_results
    rfl
  show (V m c main_v0 : FVec Ideal S4096x4096 .f32) (ix2 r d) = _
  rw [e]
  refine shapeCast_apply _ _ (ix2 r d) (ix3 (rowB r) (rowS r) d) ?_
  rw [Shape.rowMajor_val_three, Shape.rowMajor_val_two]
  show (r.val / 2048 * 2048 + r.val % 2048) * 4096 + d.val = r.val * 4096 + d.val
  omega

theorem warr_eq (c : Dev nD) : warr m c = m ((c : Thread nD τ).loc main_arg1) := V_main_arg1 m c

end Cert.KernelIdeal.Blocks

end
-- ==== Proof.Pieces.lean ====
/-
  What each kind of grid step leaves behind, as one function of what it was given.

  A step is given its activation tile `x0`, its weight tile `x1` and (except at the first of a run of eight)
  the accumulator `xs0` the step before left. Every step ends by storing, over the whole accumulator,
  the accumulator plus the tile product. The first step of a run stores zero first and reads that back, so it
  starts from the zero accumulator; the last step of a run also copies the new accumulator, read back after the
  store, into the output tile. So in all three cases the accumulator ends at the step function of the two tiles
  and the incoming accumulator, and in the last case the output tile holds the same.
-/
import proofs.«171046_j10376640987248_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle step: the accumulator ends at the step function of the tiles and the incoming accumulator. -/
theorem acc_mid (c : Dev nD) (i : grid0.Coords) (a3 : Memref sig .tc .vmem S1024x512 .f32) (h3 : a3.IsWhole)
    (a4 : Memref sig .tc .vmem S1024x512 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x512 .f32) (xs0 : Vec F S1024x1024 .f32) :
    sout0_B_0 c i a3 h3 a4 h4 a5 h5 a6 h6 hc0 hc1 x0 x1 xs0 = k0_pay2 x1 x0 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x512) hz,
    View.ld_unit_zero (S := S1024x1024) hz]

/-- The first step of a run: the same from the zero accumulator it has just stored. -/
theorem acc_first (c : Dev nD) (i : grid0.Coords) (a3 : Memref sig .tc .vmem S1024x512 .f32) (h3 : a3.IsWhole)
    (a4 : Memref sig .tc .vmem S1024x512 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x512 .f32) :
    sout0_A_0 c i a3 h3 a4 h4 a5 h5 a6 h6 hc0 hc1 x0 x1 = k0_pay2 x1 x0 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x512) hz,
    View.ld_unit_zero (S := S1024x1024) hz]

/-- The last step of a run: the accumulator as in a middle step, -/
theorem acc_last (c : Dev nD) (i : grid0.Coords) (a3 : Memref sig .tc .vmem S1024x512 .f32) (h3 : a3.IsWhole)
    (a4 : Memref sig .tc .vmem S1024x512 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x512 .f32) (xs0 : Vec F S1024x1024 .f32) :
    sout0_C_0 c i a3 h3 a4 h4 a5 h5 a6 h6 hc0 hc1 x0 x1 xs0 = k0_pay2 x1 x0 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x512) hz,
    View.ld_unit_zero (S := S1024x1024) hz]

/-- and the output tile at the same value, read back from the accumulator after the store. -/
theorem out_last (c : Dev nD) (i : grid0.Coords) (a3 : Memref sig .tc .vmem S1024x512 .f32) (h3 : a3.IsWhole)
    (a4 : Memref sig .tc .vmem S1024x512 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x512 .f32) (xs0 : Vec F S1024x1024 .f32) :
    out0_C_2 c i a3 h3 a4 h4 a5 h5 a6 h6 hc0 hc1 x0 x1 xs0 = k0_pay2 x1 x0 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readCov_unit_zero (S := S1024x1024) _ hz, View.readAt_eq_ld, h3.read_unread, h4.read_unread, h6.read_unread,
    View.ld_unit_zero (S := S1024x512) hz, View.ld_unit_zero (S := S1024x1024) hz]

end Cert.KernelIdeal.Pieces

end
-- ==== Proof.Accumulate.lean ====
/-
  The accumulator, point by point.

  Within a run of eight consecutive grid points the output tile (i, j) stays put and k runs over the eight
  column tiles. The first point of the run leaves zero plus the first tile sum; every later point adds its own
  tile sum to what the point before left. So after point n the accumulator's entry (p, q) is the first
  n % 8 + 1 tile sums, added in order onto zero, of the whole row product of activation row (i, p) with
  quantized weight row (j, q) — by induction on the point, never by listing the grid.
-/
import proofs.«171046_j10376640987248_1_alg».proof.Proof.Blocks
import proofs.«171046_j10376640987248_1_alg».proof.Proof.Pieces

noncomputable section

namespace Cert.KernelIdeal.Accumulate

open Cert.KernelIdeal Cert.KernelIdeal.Gen Cert.TernaryLinear Cert.KernelIdeal.TileValue Cert.KernelIdeal.Blocks
open Idealize.ShloMosaic Idealize.ShloMosaic.TcCoe Idealize.ShloMosaic.ValueIdx Idealize.SL.Sem

variable (m : (ℓ : Loc nD τ sig) → Buf (Elt Ideal) ℓ)

/-- The terms of the whole row product behind entry (p, q) of point `n`'s output tile. -/
abbrev term (c : Dev nD) (n : ℕ) (p q : Fin 1024) : Fin 4096 → EReal :=
  fun d => xarr m c (ix2 (xrow n p) d) * wq (warr m c) (wrow n q) d

/-- The first point of a run leaves zero plus its tile sum. -/
theorem first_pt (c : Dev nD) (t : Fin cfg0.N) (h0 : t.val % 8 = 0) (p q : Fin 1024) :
    (outsAt0 m c t.val t.isLt).2 (ix2 p q) = psum (term m c t.val p q) 1 := by
  have h1 : ¬t.val % 8 = 7 := by omega
  rw [outsAt0_A m c t h0 h1]
  dsimp only
  refine (congrFun (Pieces.acc_first (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (xblk m c t) (wblk m c t)) (ix2 p q)).trans ?_
  refine (step_apply (wblk m c t) (xblk m c t) (k0_pay1 (F := Ideal)) p q).trans ?_
  rw [zero_apply, tile_eq, psum_succ _ 0 (by decide), psum_zero]
  exact congrArg (fun k => 0 + tileSum (term m c t.val p q) k) (Fin.ext h0)

/-- Every other point adds its tile sum to what the point before left. -/
theorem next_pt (c : Dev nD) (t : Fin cfg0.N) (h0 : ¬t.val % 8 = 0) (p q : Fin 1024) :
    (outsAt0 m c t.val t.isLt).2 (ix2 p q)
      = (outsAt0 m c (t.val - 1) (Nat.lt_of_le_of_lt (Nat.sub_le _ _) t.isLt)).2 (ix2 p q)
        + tileSum (term m c t.val p q) (tile t.val) := by
  by_cases h1 : t.val % 8 = 7
  · rw [outsAt0_C m c t h0 h1]
    dsimp only
    refine (congrFun (Pieces.acc_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (xblk m c t) (wblk m c t)
      (outsAt0 m c (t.val - 1) (Nat.lt_of_le_of_lt (Nat.sub_le _ _) t.isLt)).2) (ix2 p q)).trans ?_
    refine (step_apply (wblk m c t) (xblk m c t) _ p q).trans ?_
    rw [tile_eq]
  · rw [outsAt0_B m c t h0 h1]
    dsimp only
    refine (congrFun (Pieces.acc_mid (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (xblk m c t) (wblk m c t)
      (outsAt0 m c (t.val - 1) (Nat.lt_of_le_of_lt (Nat.sub_le _ _) t.isLt)).2) (ix2 p q)).trans ?_
    refine (step_apply (wblk m c t) (xblk m c t) _ p q).trans ?_
    rw [tile_eq]

/-- Inside a run the output tile does not move. -/
theorem term_succ (c : Dev nD) (n : ℕ) (h0 : ¬(n + 1) % 8 = 0) (p q : Fin 1024) : term m c (n + 1) p q = term m c n p q := by
  have ex : xrow (n + 1) p = xrow n p := Fin.ext (by show (n + 1) / 32 % 4 * 1024 + p.val = n / 32 % 4 * 1024 + p.val; omega)
  have ew : wrow (n + 1) q = wrow n q := Fin.ext (by show (n + 1) / 8 % 4 * 1024 + q.val = n / 8 % 4 * 1024 + q.val; omega)
  unfold term
  rw [ex, ew]

/-- After point `n`: the first `n % 8 + 1` tile sums, in order, onto zero. -/
theorem acc_eq (c : Dev nD) : ∀ (n : ℕ) (h : n < cfg0.N) (p q : Fin 1024),
    (outsAt0 m c n h).2 (ix2 p q) = psum (term m c n p q) (n % 8 + 1) := by
  intro n
  induction n with
  | zero => intro h p q; exact first_pt m c ⟨0, h⟩ rfl p q
  | succ n ih =>
    intro h p q
    by_cases h0 : (n + 1) % 8 = 0
    · refine (first_pt m c ⟨n + 1, h⟩ h0 p q).trans ?_
      show psum (term m c (n + 1) p q) 1 = psum (term m c (n + 1) p q) ((n + 1) % 8 + 1)
      rw [h0]
    · refine (next_pt m c ⟨n + 1, h⟩ h0 p q).trans ?_
      show (outsAt0 m c n _).2 (ix2 p q) + tileSum (term m c (n + 1) p q) (tile (n + 1)) = psum (term m c (n + 1) p q) ((n + 1) % 8 + 1)
      have e : (n + 1) % 8 = n % 8 + 1 := by omega
      have hk : n % 8 + 1 < 8 := by omega
      rw [ih _ p q, term_succ m c n h0 p q, e, psum_succ _ (n % 8 + 1) hk]
      exact congrArg (fun k => psum (term m c n p q) (n % 8 + 1) + tileSum (term m c n p q) k) (Fin.ext e)

end Cert.KernelIdeal.Accumulate

end
-- ==== Proof.Final.lean ====
/-
  From the accumulator to the result array.

  The last point of each run of eight copies the accumulator into the output tile, which is then written
  back: by then all eight tile sums are in, so entry (p, q) of tile (i, j) is the whole row product of
  activation row i · 1024 + p with quantized weight row j · 1024 + q. The sixteen tiles fill the 4096 x 4096
  array: entry (r, o) is written by the last point of the run of tile (r / 1024, o / 1024). The program then
  reshapes that array to (2, 2048, 4096): entry (b, s, o) is row b · 2048 + s of it, and row b · 2048 + s of the
  flattened activations is x[b, s, ·]. So the result is the specification's.
-/
import proofs.«171046_j10376640987248_1_alg».proof.Proof.Accumulate

noncomputable section

namespace Cert.KernelIdeal.Final

open Cert.KernelIdeal Cert.KernelIdeal.Gen Cert.TernaryLinear Cert.KernelIdeal.TileValue Cert.KernelIdeal.Blocks
  Cert.KernelIdeal.Accumulate
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The product of the flattened activations with the transposed quantized weights, as contents of the kernel's
    output array. -/
def prod2 (c : Dev nD) : FVec Ideal S4096x4096 .f32 :=
  fun i => dot2 (xarr m c) (warr m c) (i 0 : Fin 4096) (i 1 : Fin 4096)

theorem prod2_ix2 (c : Dev nD) (r o : Fin 4096) : prod2 m c (ix2 r o) = dot2 (xarr m c) (warr m c) r o := rfl

/-- At the last point of a run the output tile holds what the accumulator holds. -/
theorem out_eq_acc (c : Dev nD) (t : Fin cfg0.N) (h0 : ¬t.val % 8 = 0) (h7 : t.val % 8 = 7) :
    (outsAt0 m c t.val t.isLt).1 = (outsAt0 m c t.val t.isLt).2 := by
  rw [outsAt0_C m c t h0 h7]
  dsimp only
  exact (Pieces.out_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h7) (xblk m c t) (wblk m c t)
      (outsAt0 m c (t.val - 1) (Nat.lt_of_le_of_lt (Nat.sub_le _ _) t.isLt)).2).trans
    (Pieces.acc_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h7) (xblk m c t) (wblk m c t)
      (outsAt0 m c (t.val - 1) (Nat.lt_of_le_of_lt (Nat.sub_le _ _) t.isLt)).2).symm

/-- What a flushing point writes back is its tile of the product. -/
theorem flushed_eq (c : Dev nD) (t : Fin cfg0.N) (hf : (cfg0.win 2).flush t = true) :
    (dats m 0 c).flushed 2 t = ((cfg0.win 2).blk t).view.read (Elt Ideal) (prod2 m c) := by
  have h7 : t.val % 8 = 7 := (flush0_2 t).mp hf
  have h0 : ¬t.val % 8 = 0 := by omega
  obtain ⟨-, -, -, -, e4, e5⟩ := idx_facts t
  have hN : t.val < 128 := lt_of_lt_of_eq t.isLt (show cfg0.N = 128 from N_0)
  show (cfg0.win 2).cut (grid0.coords t) ((dats m 0 c).after 2 t) = _
  rw [after0_2, out_eq_acc m c t h0 h7]
  funext y
  obtain ⟨p, q, rfl⟩ : ∃ (p q : Fin 1024), y = ix2 p q := ⟨y 0, y 1, eq_ix2 y⟩
  show (outsAt0 m c t.val t.isLt).2 (ix2 p q) = prod2 m c (((cfg0.win 2).blk t).view.emb (ix2 p q))
  have he : ((cfg0.win 2).blk t).view.emb (ix2 p q) = ix2 (xrow t.val p) (wrow t.val q) := by
    funext a
    apply Fin.ext
    match a with
    | ⟨0, _⟩ => show win0_2.index t (0 : Fin 2) * 1024 + 1 * p.val = t.val / 32 % 4 * 1024 + p.val; rw [e4]; omega
    | ⟨1, _⟩ => show win0_2.index t (1 : Fin 2) * 1024 + 1 * q.val = t.val / 8 % 4 * 1024 + q.val; rw [e5]; omega
  rw [he, prod2_ix2, acc_eq m c t.val t.isLt p q, h7]
  exact psum_eight _

/-- An index of the output array lies in point `t`'s tile iff each coordinate lies in the tile's range. -/
theorem mem_blk (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- Every entry of the output array is in the tile of some flushing point. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  have hn : (i 0).val / 1024 * 32 + (i 1).val / 1024 * 8 + 7 < cfg0.N := by rw [show cfg0.N = 128 from N_0]; omega
  obtain ⟨-, -, -, -, e4, e5⟩ := idx_facts ⟨_, hn⟩
  refine ⟨⟨_, hn⟩, (flush0_2 _).mpr (by show ((i 0).val / 1024 * 32 + (i 1).val / 1024 * 8 + 7) % 8 = 7; omega), ?_⟩
  rw [mem_blk]
  intro a
  match a with
  | ⟨0, _⟩ =>
    show win0_2.index ⟨_, hn⟩ (0 : Fin 2) * 1024 ≤ (i 0).val ∧ (i 0).val < win0_2.index ⟨_, hn⟩ (0 : Fin 2) * 1024 + 1024
    rw [e4]
    show ((i 0).val / 1024 * 32 + (i 1).val / 1024 * 8 + 7) / 32 * 1024 ≤ (i 0).val
      ∧ (i 0).val < ((i 0).val / 1024 * 32 + (i 1).val / 1024 * 8 + 7) / 32 * 1024 + 1024
    omega
  | ⟨1, _⟩ =>
    show win0_2.index ⟨_, hn⟩ (1 : Fin 2) * 1024 ≤ (i 1).val ∧ (i 1).val < win0_2.index ⟨_, hn⟩ (1 : Fin 2) * 1024 + 1024
    rw [e5]
    show ((i 0).val / 1024 * 32 + (i 1).val / 1024 * 8 + 7) / 8 % 4 * 1024 ≤ (i 1).val
      ∧ (i 1).val < ((i 0).val / 1024 * 32 + (i 1).val / 1024 * 8 + 7) / 8 % 4 * 1024 + 1024
    omega

/-- So the kernel's output array ends holding the product. -/
theorem final (c : Dev nD) : (dats m 0 c).arrAt 2 cfg0.N = prod2 m c :=
  (dats m 0 c).arrAt_eq_of_cover 2 (prod2 m c) (fun t hf => flushed_eq m c t hf) (cover)

/-! ## The reshape after the kernel -/

/-- Row `b · 2048 + s` of the flattened arrays. -/
def flatRow (b : Fin 2) (s : Fin 2048) : Fin 4096 := ⟨b.val * 2048 + s.val, by have := b.isLt; have := s.isLt; omega⟩

/-- The program's result buffer: the output array reshaped to three axes. -/
theorem tail_eq (c : Dev nD) :
    Pipeline.afterTail₀ cfgs (dats m) 0 (V0 m) [hostOps1] c main_v2
      = shapeCast S2x2048x4096 (prod2 m c) Gen.shapeCasts_S4096x4096_S2x2048x4096 := by
  unfold Pipeline.afterTail₀
  show StableHlo.after hostOps1 _ (Proc.devRef .tc main_v2) = _
  after_results
  exact congrArg (fun v => shapeCast S2x2048x4096 v Gen.shapeCasts_S4096x4096_S2x2048x4096)
    ((Pipeline.withArrays_arr spec0 launch0.win.arr_inj c _ _ 2).trans (final m c))

/-- The reshaped product is the specification's result of the two argument arrays. -/
theorem result_eq (c : Dev nD) :
    shapeCast S2x2048x4096 (prod2 m c) Gen.shapeCasts_S4096x4096_S2x2048x4096
      = result (m ((c : Thread nD τ).loc main_arg0)) (m ((c : Thread nD τ).loc main_arg1)) := by
  funext i
  obtain ⟨b, s, o, rfl⟩ : ∃ (b : Fin 2) (s : Fin 2048) (o : Fin 4096), i = ix3 b s o := ⟨i 0, i 1, i 2, eq_ix3 i⟩
  have hb := b.isLt; have hs := s.isLt
  rw [result_ix3]
  refine (shapeCast_apply (prod2 m c) _ (ix3 b s o) (ix2 (flatRow b s) o) (by
    rw [Shape.rowMajor_val_two, Shape.rowMajor_val_three]
    show (b.val * 2048 + s.val) * 4096 + o.val = (b.val * 2048 + s.val) * 4096 + o.val
    rfl)).trans ?_
  rw [prod2_ix2]
  unfold dot2 dot3
  rw [warr_eq]
  refine Finset.sum_congr rfl fun d _ => ?_
  rw [xarr_apply]
  have eb : rowB (flatRow b s) = b := Fin.ext (by show (b.val * 2048 + s.val) / 2048 = b.val; omega)
  have es : rowS (flatRow b s) = s := Fin.ext (by show (b.val * 2048 + s.val) % 2048 = s.val; omega)
  rw [eb, es]

/-- The run, read: the result buffer at the specification's result, the arguments unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Final

end
-- ==== Proof.lean ====
/-
  A linear layer with ternary weights, tiled, against its one-piece definition.

  Both programs quantize a 4096 x 4096 weight matrix group by group (groups of 128 along a row: the scale is the
  floored mean absolute value, the code is +1, -1 or 0 by comparing the quotient with plus and minus one half, the
  quantized weight is code times scale) and multiply 2 x 2048 x 4096 activations by its transpose. The reference does
  so in one contraction over all 4096 columns. The kernel works on 1024 x 1024 output tiles; for each it walks the
  eight column tiles of 512, quantizing the weight tile on the way (a tile is four whole groups), accumulating the
  partial products in a scratch accumulator that starts at zero, and writes the tile out after the eighth step.

  Over the extended reals the two agree with no condition on the inputs: a change of float format is the identity,
  the two programs carry the same constants, a tile's groups are the matrix's groups, and a sum of 4096 terms is the
  sum of its eight tiles' sums taken in order from zero, because addition is associative and commutative there.
  The ideal pass rewrote nothing, so the idealization is the kernel's own text.

    Spec         the quantization and the product as one function; the tiled sum law
    RefValue     the reference is that function, read one operation at a time
    TileValue    one grid step at an index: the accumulator plus a tile product
    Pieces       what each of the three kinds of step leaves in the accumulator and the output tile
    Blocks       where a grid point's tiles sit in the whole arrays
    Accumulate   the accumulator after every point, by induction on the point
    Final        the output array, the reshape after it, and the run
-/
import proofs.«171046_j10376640987248_1_alg».proof.Defs
import proofs.«171046_j10376640987248_1_alg».proof.Proof.Gen.Kernel
import proofs.«171046_j10376640987248_1_alg».proof.Proof.Gen.Kernel.Frame
import proofs.«171046_j10376640987248_1_alg».proof.Proof.Gen.KernelIdeal
import proofs.«171046_j10376640987248_1_alg».proof.Proof.Gen.KernelIdeal.Frame
import proofs.«171046_j10376640987248_1_alg».proof.Proof.Gen.ReferenceIdeal
import proofs.«171046_j10376640987248_1_alg».proof.Proof.Gen.Pre_finite_inputs
import proofs.«171046_j10376640987248_1_alg».proof.Proof.RefValue
import proofs.«171046_j10376640987248_1_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's result of the argument arrays, which agree. -/
theorem algebraic : Cert.algebraic_KernelIdeal_ReferenceIdeal := by
  intro m ρ m' ρ' _ hagree
  refine ⟨fun c => Cert.TernaryLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
